-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v21) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S512x2048 : Shape := ⟨2, ![512, 2048]⟩
abbrev S_ : Shape := ⟨0, ![]⟩

class Facts : Prop where
  bcast_S_S512x2048 : S_.BroadcastsInDim S512x2048 (![] : Fin 0 → Fin S512x2048.rank)
  reducesTo_S512x2048_S_d0_1 : S512x2048.ReducesTo [0, 1] S_
  h_S_ : 0 < S_.numel

variable [Facts]

def fn {F : FTy → Type} [FloatOps F] (main_arg0 : IVec S512x2048 32) (main_arg1 : FVec F S512x2048 .f32) : IVec S_ 1 :=
  let main_v0 : FVec F S512x2048 .f32 := Host.absf main_arg1
  let main_cst : FVec F S_ .f32 := constant S_ .f32 0x7F800000#32
  let main_v1 : FVec F S512x2048 .f32 := broadcastInDim S512x2048 ![] bcast_S_S512x2048 main_cst
  let main_v2 : IVec S512x2048 1 := cmpf .olt main_v0 main_v1
  let main_c : IVec S_ 1 := constantI S_ 1 1#1
  let main_v3 : IVec S_ 1 := (fun x v => Host.reduce IntOp.andi x v reducesTo_S512x2048_S_d0_1 h_S_) main_v2 main_c
  let main_c_0 : IVec S_ 32 := constantI S_ 32 0#32
  let main_v4 : IVec S512x2048 32 := broadcastInDim S512x2048 ![] bcast_S_S512x2048 main_c_0
  let main_v5 : IVec S512x2048 1 := cmpi .sge main_arg0 main_v4
  let main_c_1 : IVec S_ 1 := constantI S_ 1 1#1
  let main_v6 : IVec S_ 1 := (fun x v => Host.reduce IntOp.andi x v reducesTo_S512x2048_S_d0_1 h_S_) main_v5 main_c_1
  let main_v7 : IVec S_ 1 := andi main_v3 main_v6
  let main_c_2 : IVec S_ 32 := constantI S_ 32 50257#32
  let main_v8 : IVec S512x2048 32 := broadcastInDim S512x2048 ![] bcast_S_S512x2048 main_c_2
  let main_v9 : IVec S512x2048 1 := cmpi .slt main_arg0 main_v8
  let main_c_3 : IVec S_ 1 := constantI S_ 1 1#1
  let main_v10 : IVec S_ 1 := (fun x v => Host.reduce IntOp.andi x v reducesTo_S512x2048_S_d0_1 h_S_) main_v9 main_c_3
  let main_v11 : IVec S_ 1 := andi main_v7 main_v10
  main_v11
-- ==== Kernel.lean ====
abbrev S512x2048 : Shape := ⟨2, ![512, 2048]⟩
abbrev S_ : Shape := ⟨0, ![]⟩
abbrev S512 : Shape := ⟨1, ![512]⟩
abbrev S512x1 : Shape := ⟨2, ![512, 1]⟩
abbrev S512x50304 : Shape := ⟨2, ![512, 50304]⟩
abbrev S32x2048 : Shape := ⟨2, ![32, 2048]⟩
abbrev S32x1 : Shape := ⟨2, ![32, 1]⟩
abbrev S32x128 : Shape := ⟨2, ![32, 128]⟩
abbrev S1x1x128 : Shape := ⟨3, ![1, 1, 128]⟩
abbrev S32x256 : Shape := ⟨2, ![32, 256]⟩
abbrev S32x256x1 : Shape := ⟨3, ![32, 256, 1]⟩
abbrev S32x256x128 : Shape := ⟨3, ![32, 256, 128]⟩
abbrev S512x50257 : Shape := ⟨2, ![512, 50257]⟩

abbrev nBuf : Space → Nat
  | .hbm => 7
  | .vmem => 8
  | .smem => 0
  | _ => 0

abbrev bufTy : (tb : Table) → Fin (tcTables nBuf tb) → BufTy
  | .hbm, ⟨0, _⟩ => ⟨S512x2048, .i32⟩
  | .hbm, ⟨1, _⟩ => ⟨S512x2048, .f32⟩
  | .hbm, ⟨2, _⟩ => ⟨S_, .f32⟩
  | .hbm, ⟨3, _⟩ => ⟨S512, .f32⟩
  | .hbm, ⟨4, _⟩ => ⟨S512x1, .f32⟩
  | .hbm, ⟨5, _⟩ => ⟨S512x50304, .f32⟩
  | .hbm, ⟨6, _⟩ => ⟨S512x50257, .f32⟩
  | .local _ .vmem, ⟨0, _⟩ => ⟨S32x2048, .i32⟩
  | .local _ .vmem, ⟨1, _⟩ => ⟨S32x2048, .i32⟩
  | .local _ .vmem, ⟨2, _⟩ => ⟨S32x2048, .f32⟩
  | .local _ .vmem, ⟨3, _⟩ => ⟨S32x2048, .f32⟩
  | .local _ .vmem, ⟨4, _⟩ => ⟨S32x1, .f32⟩
  | .local _ .vmem, ⟨5, _⟩ => ⟨S32x1, .f32⟩
  | .local _ .vmem, ⟨6, _⟩ => ⟨S32x128, .f32⟩
  | .local _ .vmem, ⟨7, _⟩ => ⟨S32x128, .f32⟩
  | _, _ => ⟨S512x2048, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![16, 393], ![false, false]⟩

@[reducible] def k0_t1_loop : Scf.Loop 32 :=
  let c0_i32 : BitVec 32 := 0#32
  let c8_i32 : BitVec 32 := 8#32
  let v5 : BitVec 32 := Scalar.addi c0_i32 c8_i32
  let c1_i32 : BitVec 32 := 1#32
  ⟨c0_i32, v5, c1_i32⟩
def k0_mult1 (k0_t1 : Fin k0_t1_loop.trips) : BitVec 32 :=
  let c0_i32 : BitVec 32 := 0#32
  let c1_i32 : BitVec 32 := 1#32
  let arg6 : BitVec 32 := Scf.iv c0_i32 c1_i32 k0_t1
  let c256_i32 : BitVec 32 := 256#32
  let v12 : BitVec 32 := Scalar.muli arg6 c256_i32
  v12
def k0_off1 (k0_t1 : Fin k0_t1_loop.trips) : Fin 2 → Nat :=
  let c0_4 : Index := 0#32
  let c0_i32 : BitVec 32 := 0#32
  let c1_i32 : BitVec 32 := 1#32
  let arg6 : BitVec 32 := Scf.iv c0_i32 c1_i32 k0_t1
  let c256_i32 : BitVec 32 := 256#32
  let v12 : BitVec 32 := Scalar.muli arg6 c256_i32
  let v13 : BitVec 32 := v12
  let v14 : Index := Scalar.indexCast v13
  ![0, v14.toNat]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S32x2048 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S32x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S32x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S32x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

class Facts₀ : Prop where
  reducesTo_S512x2048_S512_d1 : S512x2048.ReducesTo [1] S512
  h_S_ : 0 < S_.numel
  bcast_S512_S512x1_0 : S512.BroadcastsInDim S512x1 (![0] : Fin 1 → Fin S512x1.rank)
  iota_S1x1x128_d2_w32 : S1x1x128.Iotas .tc 32 [2]
  h_S32x256 : 0 < S32x256.numel
  shapeCasts_S32x256_S32x256x1 : S32x256.ShapeCasts S32x256x1
  broadcasts_S32x256x1_S32x256x128 : S32x256x1.Broadcasts S32x256x128
  broadcasts_S1x1x128_S32x256x128 : S1x1x128.Broadcasts S32x256x128
  natLt_1_32 : 1 < 32
  reduces_S32x256x128_S32x128 : S32x256x128.Reduces [1] S32x128
  inb_S32x1_S32x1_0_0 : ∀ a, (![0, 0] : Fin 2 → Nat) a + S32x1.size a ≤ S32x1.size a
  h_S32x1 : 0 < S32x1.numel
  shapeCasts_S32x1_S32x1 : S32x1.ShapeCasts S32x1
  broadcasts_S32x1_S32x128 : S32x1.Broadcasts S32x128
  inb_S32x128_S32x128_0_0 : ∀ a, (![0, 0] : Fin 2 → Nat) a + S32x128.size a ≤ S32x128.size a
  h_S32x128 : 0 < S32x128.numel
  slices_S512x50304_S512x50257_0_0 : S512x50304.Slices ![0, 0] S512x50257
  hrank0 : 0 < grid0.rank
  k0_t1_ok : k0_t1_loop.OK
  k0_mult1_dvd : ∀ k0_t1 : Fin k0_t1_loop.trips, 256 ∣ (k0_mult1 k0_t1).toNat
  k0_off1_inb : ∀ k0_t1 : Fin k0_t1_loop.trips, ∀ a, (k0_off1 k0_t1) a + S32x256.size a ≤ S32x2048.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S32x2048.size a ≤ S512x2048.size a
  hwx0_0 : ∀ i : grid0.Coords, EltTy.bits .i32 = 32 ∨ (Rect.block (s := S512x2048) S32x2048.size (cc0_transform_0 i) (hinb0_0 i)).WholeWords (EltTy.packing .i32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S32x2048.size a ≤ S512x2048.size a
  hwx0_1 : ∀ i : grid0.Coords, EltTy.bits .f32 = 32 ∨ (Rect.block (s := S512x2048) S32x2048.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S32x1.size a ≤ S512x1.size a
  hwx0_2 : ∀ i : grid0.Coords, EltTy.bits .f32 = 32 ∨ (Rect.block (s := S512x1) S32x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S32x128.size a ≤ S512x50304.size a
  hwx0_3 : ∀ i : grid0.Coords, EltTy.bits .f32 = 32 ∨ (Rect.block (s := S512x50304) S32x128.size (cc0_transform_3 i) (hinb0_3 i)).WholeWords (EltTy.packing .f32)

variable [Facts₀]

abbrev win0_0 : Pipeline.Window sig grid0 :=
  Pipeline.Window.ofSpec (Memref.whole main_arg0) S32x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S32x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S32x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v2) S32x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S512x2048 : Shape := ⟨2, ![512, 2048]⟩
abbrev S512 : Shape := ⟨1, ![512]⟩
abbrev S512x1 : Shape := ⟨2, ![512, 1]⟩
abbrev S_ : Shape := ⟨0, ![]⟩
abbrev S512x50257 : Shape := ⟨2, ![512, 50257]⟩
abbrev S512x2048x1 : Shape := ⟨3, ![512, 2048, 1]⟩
abbrev S512x2048x2 : Shape := ⟨3, ![512, 2048, 2]⟩

abbrev nBuf : Space → Nat
  | .hbm => 30
  | .vmem => 0
  | .smem => 0
  | _ => 0

abbrev bufTy : (tb : Table) → Fin (tcTables nBuf tb) → BufTy
  | .hbm, ⟨0, _⟩ => ⟨S512x2048, .i32⟩
  | .hbm, ⟨1, _⟩ => ⟨S512x2048, .f32⟩
  | .hbm, ⟨2, _⟩ => ⟨S512, .i32⟩
  | .hbm, ⟨3, _⟩ => ⟨S512x1, .i32⟩
  | .hbm, ⟨4, _⟩ => ⟨S_, .f32⟩
  | .hbm, ⟨5, _⟩ => ⟨S512x50257, .f32⟩
  | .hbm, ⟨6, _⟩ => ⟨S_, .i32⟩
  | .hbm, ⟨7, _⟩ => ⟨S512x1, .i32⟩
  | .hbm, ⟨8, _⟩ => ⟨S512x1, .i1⟩
  | .hbm, ⟨9, _⟩ => ⟨S_, .i32⟩
  | .hbm, ⟨10, _⟩ => ⟨S512x1, .i32⟩
  | .hbm, ⟨11, _⟩ => ⟨S512x1, .i32⟩
  | .hbm, ⟨12, _⟩ => ⟨S512x1, .i32⟩
  | .hbm, ⟨13, _⟩ => ⟨S_, .i32⟩
  | .hbm, ⟨14, _⟩ => ⟨S512x2048, .i32⟩
  | .hbm, ⟨15, _⟩ => ⟨S512x2048, .i1⟩
  | .hbm, ⟨16, _⟩ => ⟨S_, .i32⟩
  | .hbm, ⟨17, _⟩ => ⟨S512x2048, .i32⟩
  | .hbm, ⟨18, _⟩ => ⟨S512x2048, .i32⟩
  | .hbm, ⟨19, _⟩ => ⟨S512x2048, .i32⟩
  | .hbm, ⟨20, _⟩ => ⟨S512x2048, .i32⟩
  | .hbm, ⟨21, _⟩ => ⟨S512x2048x1, .i32⟩
  | .hbm, ⟨22, _⟩ => ⟨S512x2048x1, .i32⟩
  | .hbm, ⟨23, _⟩ => ⟨S512x2048x2, .i32⟩
  | .hbm, ⟨24, _⟩ => ⟨S512x50257, .f32⟩
  | .hbm, ⟨25, _⟩ => ⟨S_, .f32⟩
  | .hbm, ⟨26, _⟩ => ⟨S512, .f32⟩
  | .hbm, ⟨27, _⟩ => ⟨S512x1, .f32⟩
  | .hbm, ⟨28, _⟩ => ⟨S512x50257, .f32⟩
  | .hbm, ⟨29, _⟩ => ⟨S512x50257, .f32⟩
  | _, _ => ⟨S512x2048, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_c : Ref sig .tc := ⟨.hbm, 6, rfl⟩
abbrev main_v3 : Ref sig .tc := ⟨.hbm, 7, rfl⟩
abbrev main_v4 : Ref sig .tc := ⟨.hbm, 8, rfl⟩
abbrev main_c_0 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_c_1 : Ref sig .tc := ⟨.hbm, 13, rfl⟩
abbrev main_v8 : Ref sig .tc := ⟨.hbm, 14, rfl⟩
abbrev main_v9 : Ref sig .tc := ⟨.hbm, 15, rfl⟩
abbrev main_c_2 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst_3 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩

abbrev nD : Nat := 1
abbrev τ : Topo := Topo.v7x

variable {F : FTy → Type} [FloatOps F]

class Facts₀ : Prop where
  bcast_S512_S512x1_0 : S512.BroadcastsInDim S512x1 (![0] : Fin 1 → Fin S512x1.rank)
  bcast_S_S512x50257 : S_.BroadcastsInDim S512x50257 (![] : Fin 0 → Fin S512x50257.rank)
  bcast_S_S512x1 : S_.BroadcastsInDim S512x1 (![] : Fin 0 → Fin S512x1.rank)
  bcast_S_S512x2048 : S_.BroadcastsInDim S512x2048 (![] : Fin 0 → Fin S512x2048.rank)
  bcast_S512x1_S512x2048_0_1 : S512x1.BroadcastsInDim S512x2048 (![0, 1] : Fin 2 → Fin S512x2048.rank)
  bcast_S512x2048_S512x2048x1_0_1 : S512x2048.BroadcastsInDim S512x2048x1 (![0, 1] : Fin 2 → Fin S512x2048x1.rank)
  concatenates_S512x2048x1_S512x2048x1_S512x2048x2_d2 : Shape.Concatenates [S512x2048x1, S512x2048x1] S512x2048x2 2
  reducesTo_S512x50257_S512_d1 : S512x50257.ReducesTo [1] S512
  h_S_ : 0 < S_.numel
  bcast_S512x1_S512x50257_0_1 : S512x1.BroadcastsInDim S512x50257 (![0, 1] : Fin 2 → Fin S512x50257.rank)
  scatter_S512x50257_S512x2048x2_S512x2048_n_01_01_2_wf : ScatterDims.WF S512x50257 S512x2048x2 S512x2048 [] [0, 1] [0, 1] 2

variable [Facts₀]

def scatter_S512x50257_S512x2048x2_S512x2048_n_01_01_2 : ScatterDims S512x50257 S512x2048x2 S512x2048 where
  updateWindowDims := []
  insertedWindowDims := [0, 1]
  scatterDimsToOperandDims := [0, 1]
  indexVectorDim := 2
  wf := scatter_S512x50257_S512x2048x2_S512x2048_n_01_01_2_wf

class Facts : Prop extends Facts₀ where

variable [Facts]
-- ==== Proof.HistSpec.lean ====
import Idealize.ShloMosaic.PureOps.Ideal
import Idealize.ShloMosaic.PureOps.Ideal.Laws
import Idealize.ShloMosaic.Lib.ValueIdx

/-!
# The row-normalised vocabulary histogram, as one function of the two argument arrays

`a` holds, for each of 512 rows, 2048 vocabulary words (32-bit integers); `w` holds a weight per token.
Row `b`'s histogram at word `v` is the total weight of the row's tokens equal to `v`; the result divides it by the
row's total weight. When every token is a word of the vocabulary (`0 ≤ a < 50257`), the histogram's row sum is
the row's total weight: every token is counted once, at its own word.
-/

noncomputable section

namespace Cert.Hist

open Idealize.ShloMosaic Idealize.ShloMosaic.ValueIdx

/-- Tokens: 512 rows of 2048 positions. -/
abbrev SA : Shape := ⟨2, ![512, 2048]⟩
/-- The histogram: 512 rows of 50257 vocabulary words. -/
abbrev SO : Shape := ⟨2, ![512, 50257]⟩

/-- Every token is a word of the vocabulary, read as a signed integer. -/
def InRange (a : IVec SA 32) : Prop := ∀ i : SA.Idx, 0 ≤ (a i).toInt ∧ (a i).toInt < 50257

/-- The weight of row `b`'s tokens that are the word `v`. -/
def hist (a : IVec SA 32) (w : SA.Idx → EReal) (b : Fin 512) (v : ℕ) : EReal :=
  ∑ s : Fin 2048, if a (ix2 b s) = BitVec.ofNat 32 v then w (ix2 b s) else 0

/-- Row `b`'s total weight. -/
def total (w : SA.Idx → EReal) (b : Fin 512) : EReal := ∑ s : Fin 2048, w (ix2 b s)

/-- The frequency table: each row's histogram over its total weight. -/
def freq (a : IVec SA 32) (w : SA.Idx → EReal) : SO.Idx → EReal :=
  fun i => Ideal.div (hist a w (i 0) (i 1).val) (total w (i 0))

/-- A word in the vocabulary's range is its value's 32-bit word, and only that. -/
theorem toInt_eq_iff (x : BitVec 32) (v : ℕ) (hv : v < 50257) (hx : 0 ≤ x.toInt ∧ x.toInt < 50257) :
    x.toInt = (v : ℤ) ↔ x = BitVec.ofNat 32 v := by
  have hn := x.isLt
  rw [BitVec.toInt_eq_toNat_cond] at hx ⊢
  constructor
  · intro h
    apply BitVec.eq_of_toNat_eq
    rw [BitVec.toNat_ofNat]
    split at h <;> split at hx <;> omega
  · intro h
    have : x.toNat = v := by rw [h, BitVec.toNat_ofNat]; omega
    split <;> omega

theorem toNat_lt_of_inRange {a : IVec SA 32} (h : InRange a) (i : SA.Idx) : (a i).toNat < 50257 := by
  have hx := h i
  have hn := (a i).isLt
  rw [BitVec.toInt_eq_toNat_cond] at hx
  split at hx <;> omega

/-- Every in-range token is counted once over the vocabulary: the histogram's row sum is the row's weight. -/
theorem sum_hist_eq_total (a : IVec SA 32) (w : SA.Idx → EReal) (h : InRange a) (b : Fin 512) :
    ∑ v : Fin 50257, hist a w b v.val = total w b := by
  unfold hist total
  rw [Finset.sum_comm]
  refine Finset.sum_congr rfl fun s _ => ?_
  rw [Finset.sum_eq_single ⟨(a (ix2 b s)).toNat, toNat_lt_of_inRange h _⟩]
  · rw [if_pos (by simp)]
  · intro v _ hv
    rw [if_neg]
    intro e
    apply hv
    apply Fin.ext
    show v.val = (a (ix2 b s)).toNat
    have hv' := v.isLt
    rw [e, BitVec.toNat_ofNat]; omega
  · intro hn; exact absurd (Finset.mem_univ _) hn

/-- A sum over the tokens selected by "row `b`, word `v`" is the histogram's cell. -/
theorem sum_filter_eq_hist (a : IVec SA 32) (w : SA.Idx → EReal) (h : InRange a) (P : SA.Idx → Prop) [DecidablePred P]
    (b : Fin 512) (v : Fin 50257) (hP : ∀ j, P j ↔ ((j 0).val = b.val ∧ (a j).toInt = (v.val : ℤ))) :
    ∑ j ∈ Finset.univ.filter P, w j = hist a w b v.val := by
  unfold hist
  rw [Finset.sum_filter, sum_idx2, Finset.sum_eq_single b]
  · refine Finset.sum_congr rfl fun s _ => ?_
    have : P (ix2 b s) ↔ a (ix2 b s) = BitVec.ofNat 32 v.val := by
      rw [hP, toInt_eq_iff _ _ v.isLt (h _)]
      exact ⟨fun x => x.2, fun x => ⟨rfl, x⟩⟩
    by_cases hp : P (ix2 b s)
    · rw [if_pos hp, if_pos (this.1 hp)]
    · rw [if_neg hp, if_neg (fun e => hp (this.2 e))]
  · intro b' _ hb
    refine Finset.sum_eq_zero fun s _ => ?_
    rw [if_neg]
    intro hp
    exact hb (Fin.ext ((hP _).1 hp).1)
  · intro hn; exact absurd (Finset.mem_univ _) hn

/-- A sum over the 2048 positions, taken 256 at a time in eight steps from zero. -/
def chunked (f : ℕ → EReal) : ℕ → EReal
  | 0 => 0
  | k + 1 => chunked f k + ∑ r : Fin 256, f (256 * k + r.val)

theorem chunked_eq (f : ℕ → EReal) (k : ℕ) : chunked f k = ∑ s ∈ Finset.range (256 * k), f s := by
  induction k with
  | zero => simp [chunked]
  | succ k ih =>
    rw [chunked, ih, show 256 * (k + 1) = 256 * k + 256 by ring, Finset.sum_range_add, Fin.sum_univ_eq_sum_range (fun r => f (256 * k + r)) 256]

theorem chunked_eight (g : Fin 2048 → EReal) :
    chunked (fun s => if h : s < 2048 then g ⟨s, h⟩ else 0) 8 = ∑ s : Fin 2048, g s := by
  rw [chunked_eq, show 256 * 8 = 2048 by norm_num, ← Fin.sum_univ_eq_sum_range (fun s => if h : s < 2048 then g ⟨s, h⟩ else 0) 2048]
  refine Finset.sum_congr rfl fun s _ => ?_
  rw [dif_pos s.isLt]

end Cert.Hist
end
-- ==== Proof.PreRead.lean ====
import proofs.«403574_j5471788335935_2_alg».proof.Pre_finite_inputs
import proofs.«403574_j5471788335935_2_alg».proof.Proof.HistSpec
import Idealize.ShloMosaic.Lib.ReduceAll
import Idealize.ShloMosaic.Lib.Affine

/-!
# The range precondition, decoded

The precondition is a conjunction of three "for all elements" tests, each an and-reduction of a mask of bits over
both axes. Its second conjunct says every token is at least 0 (signed), its third that every token is below 50257.
When the conjunction is the bit 1 each conjunct is, so each mask is 1 everywhere, and the two comparisons read back
as the two inequalities on the token's signed value.
-/

noncomputable section

namespace Cert.Hist

open Idealize.ShloMosaic Idealize.ShloMosaic.ValueIdx

/-- The rank-0 index set has one element. -/
instance subsingleton_scalarIdx : Subsingleton Cert.Pre_finite_inputs.S_.Idx :=
  ⟨fun a b => funext fun d => d.elim0⟩

/-- When the range test returns the bit 1, every token lies in `[0, 50257)` as a signed integer. -/
theorem inRange_of_pre [Cert.Pre_finite_inputs.Facts] (a : IVec SA 32) (w : FVec Ideal SA .f32)
    (h : Cert.Pre_finite_inputs.fn (F := Ideal) a w = fun _ => 1#1) : InRange a := by
  have h0 := congrFun h ValueIdx.ix0
  unfold Cert.Pre_finite_inputs.fn at h0
  dsimp only at h0
  obtain ⟨h37, h10⟩ := IntOp.andi_eq_one.1 h0
  obtain ⟨_, h6⟩ := IntOp.andi_eq_one.1 h37
  intro i
  have g6 := Host.reduce_andi_all _ _ _ _ _ h6 i
  have g10 := Host.reduce_andi_all _ _ _ _ _ h10 i
  change IntOp.cmpi .sge (a i) (0#32) = 1#1 at g6
  change IntOp.cmpi .slt (a i) (50257#32) = 1#1 at g10
  rw [IntOp.cmpi_sge, show (0#32 : BitVec 32).toInt = 0 from by decide] at g6
  rw [IntOp.cmpi_slt, show (50257#32 : BitVec 32).toInt = 50257 from by decide] at g10
  exact ⟨g6, g10⟩

end Cert.Hist
end
-- ==== Proof.ScatterRead.lean ====
import proofs.«403574_j5471788335935_2_alg».proof.Proof.HistSpec

/-!
# The histogram's scatter read at one token

The reference builds the histogram by a scatter-add whose index table holds, per token, the pair (row, word);
both axes of the histogram are scattered and no window is left, so a token's weight lands on the one cell its
pair names, and lands nowhere when the pair lies outside the table.
-/

noncomputable section

namespace Cert.Hist

open Idealize.ShloMosaic Idealize.ShloMosaic.ValueIdx

/-- The scatter's index table: per token the pair (row, word). -/
abbrev SI : Shape := ⟨3, ![512, 2048, 2]⟩

variable (wf : ScatterDims.WF SO SI SA [] [0, 1] [0, 1] 2)

/-- The scatter that drops token `j`'s weight on the cell its index pair names: both operand axes are scattered, no window. -/
abbrev pairScatter : ScatterDims SO SI SA := ⟨[], [0, 1], [0, 1], 2, wf⟩

theorem siIdx_zero (j : SA.Idx) : (pairScatter wf).siIdx j ⟨0, Nat.zero_lt_two⟩ = ix3 (j 0) (j 1) 0 := by
  funext b
  match b with
  | ⟨0, _⟩ => rfl
  | ⟨1, _⟩ => rfl
  | ⟨2, _⟩ => rfl

theorem siIdx_one (j : SA.Idx) : (pairScatter wf).siIdx j ⟨1, Nat.one_lt_two⟩ = ix3 (j 0) (j 1) 1 := by
  funext b
  match b with
  | ⟨0, _⟩ => rfl
  | ⟨1, _⟩ => rfl
  | ⟨2, _⟩ => rfl

theorem start_zero (j : SA.Idx) (idx : IVec SI 32) : (pairScatter wf).start j idx 0 = (idx (ix3 (j 0) (j 1) 0)).toInt := by
  unfold ScatterDims.start
  rw [dif_pos (show (0 : Fin 2) ∈ [(0 : Fin 2), 1] by decide)]
  exact congrArg (fun x => (idx x).toInt) (siIdx_zero wf j)

theorem start_one (j : SA.Idx) (idx : IVec SI 32) : (pairScatter wf).start j idx 1 = (idx (ix3 (j 0) (j 1) 1)).toInt := by
  unfold ScatterDims.start
  rw [dif_pos (show (1 : Fin 2) ∈ [(0 : Fin 2), 1] by decide)]
  exact congrArg (fun x => (idx x).toInt) (siIdx_one wf j)

theorem window_eq (j : SA.Idx) (a : Fin SO.rank) : (pairScatter wf).window j a = 0 := by
  unfold ScatterDims.window
  rw [dif_neg]
  show a ∉ ([] : List (Fin 2))
  exact List.not_mem_nil

/-- Token `j` lands on cell `i` exactly when its index pair, read signed, is `i`'s pair of coordinates:
    nothing is clamped, and a pair outside the histogram lands nowhere. -/
theorem resultIdx_iff (j : SA.Idx) (idx : IVec SI 32) (i : SO.Idx) :
    (pairScatter wf).resultIdx? j idx = some i ↔
      (idx (ix3 (j 0) (j 1) 0)).toInt = ((i 0).val : ℤ) ∧ (idx (ix3 (j 0) (j 1) 1)).toInt = ((i 1).val : ℤ) := by
  have hi0 : (i 0).val < 512 := (i 0).isLt
  have hi1 : (i 1).val < 50257 := (i 1).isLt
  unfold ScatterDims.resultIdx?
  constructor
  · intro h
    by_cases hin : ∀ a, 0 ≤ (pairScatter wf).start j idx a + (pairScatter wf).window j a ∧
        (pairScatter wf).start j idx a + (pairScatter wf).window j a < SO.size a
    · rw [dif_pos hin] at h
      have e := Option.some.inj h
      have e0 := congrArg (fun x : SO.Idx => (x 0).val) e
      have e1 := congrArg (fun x : SO.Idx => (x 1).val) e
      have h0 := (hin 0).1
      have h1 := (hin 1).1
      simp only [window_eq, start_zero, start_one, Nat.cast_zero, add_zero] at e0 e1 h0 h1
      constructor <;> omega
    · rw [dif_neg hin] at h
      exact absurd h (by simp)
  · rintro ⟨e0, e1⟩
    have hin : ∀ a, 0 ≤ (pairScatter wf).start j idx a + (pairScatter wf).window j a ∧
        (pairScatter wf).start j idx a + (pairScatter wf).window j a < SO.size a := fun a => by
      match a with
      | ⟨0, _⟩ =>
        show 0 ≤ (pairScatter wf).start j idx 0 + ((pairScatter wf).window j 0 : ℕ) ∧
          (pairScatter wf).start j idx 0 + ((pairScatter wf).window j 0 : ℕ) < (512 : ℕ)
        rw [window_eq, start_zero, e0]; constructor <;> omega
      | ⟨1, _⟩ =>
        show 0 ≤ (pairScatter wf).start j idx 1 + ((pairScatter wf).window j 1 : ℕ) ∧
          (pairScatter wf).start j idx 1 + ((pairScatter wf).window j 1 : ℕ) < (50257 : ℕ)
        rw [window_eq, start_one, e1]; constructor <;> omega
    rw [dif_pos hin]
    refine congrArg some (funext fun a => Fin.ext ?_)
    match a with
    | ⟨0, _⟩ =>
      show ((pairScatter wf).start j idx 0 + ((pairScatter wf).window j 0 : ℕ)).toNat = (i 0).val
      rw [window_eq, start_zero, e0]; omega
    | ⟨1, _⟩ =>
      show ((pairScatter wf).start j idx 1 + ((pairScatter wf).window j 1 : ℕ)).toNat = (i 1).val
      rw [window_eq, start_one, e1]; omega

end Cert.Hist
end
-- ==== Proof.RefValue.lean ====
import proofs.«403574_j5471788335935_2_alg».proof.Proof.Gen.ReferenceIdeal.Read
import proofs.«403574_j5471788335935_2_alg».proof.Proof.ScatterRead
import Idealize.ShloMosaic.Lib.Pipeline.Value
import Idealize.ShloMosaic.Lib.StableHlo.Predicate
import Idealize.ShloMosaic.PureOps.Ideal.Laws
import Idealize.ShloMosaic.Lib.ValueIdx

/-!
# The reference computes the frequency table

The reference builds, per token (row `b`, position `s`), the index pair (row, word): the row column is the row number
`b` and the word column is the token `a[b, s]`, each passed through "add the extent if negative", which changes
neither (a row number is never negative, and an in-range token is not). A scatter-add from the all-zero table then drops
the token's weight on the cell its pair names, so the cell (row `b`, word `v`) receives the weights of row `b`'s tokens
equal to `v`: the histogram. The row sums of the histogram are the rows' total weights, because every in-range token is
counted at exactly one word; the result divides the one by the other.
-/

noncomputable section

namespace Cert.ReferenceIdeal.RefValue

open Cert.ReferenceIdeal Cert.ReferenceIdeal.Gen Cert.ReferenceIdeal.Read Cert.Hist
open Idealize.ShloMosaic Idealize.ShloMosaic.ValueIdx

variable [Cert.ReferenceIdeal.Facts]

/-- A row number, as a 32-bit word, is not negative. -/
theorem row_not_neg (b : Fin 512) : IntOp.cmpi .slt (BitVec.ofNat 32 b.val) 0#32 = 0#1 := by
  apply eq_zero_of_ne_one
  rw [IntOp.cmpi_slt, StableHlo.Predicate.toInt_ofNat_small b.val (by have := b.isLt; omega),
    show (0#32 : BitVec 32).toInt = 0 from by decide]
  omega

/-- The row column of the index table: the row number itself (it is never negative, so no wrap-around is added). -/
theorem v7_read (b : Fin 512) (z : Fin 1) :
    val_main_v7 (F := Ideal) (ix2 b z) = BitVec.ofNat 32 b.val := by
  rw [val_main_v7_apply, val_main_v4_apply, val_main_v1_apply, val_main_v0_apply, val_main_v3_apply, val_main_c_apply]
  show Scalar.select (IntOp.cmpi .slt (BitVec.ofNat 32 b.val) 0#32) _ (BitVec.ofNat 32 b.val) = _
  rw [row_not_neg, select_zero]

/-- The word column of the index table: an in-range token is its own word (it is not negative, so no wrap-around is added). -/
theorem v12_read (a : IVec SA 32) (h : InRange a) (b : Fin 512) (s : Fin 2048) :
    val_main_v12 (F := Ideal) a (ix2 b s) = a (ix2 b s) := by
  rw [val_main_v12_apply, val_main_v9_apply, val_main_v8_apply, val_main_c_1_apply]
  have hn : IntOp.cmpi .slt (a (ix2 b s)) 0#32 = 0#1 := by
    apply eq_zero_of_ne_one
    rw [IntOp.cmpi_slt, show (0#32 : BitVec 32).toInt = 0 from by decide]
    have := (h (ix2 b s)).1
    omega
  rw [hn, select_zero]

/-- The row column, broadcast along the positions. -/
theorem v13_read (b : Fin 512) (s : Fin 2048) :
    val_main_v13 (F := Ideal) (ix2 b s) = BitVec.ofNat 32 b.val := by
  rw [val_main_v13_apply]
  have e : idx_main_v13 (ix2 b s) = ix2 b (0 : Fin 1) :=
    funext fun c => Fin.ext (by match c with | ⟨0, _⟩ => rfl | ⟨1, _⟩ => rfl)
  rw [e, v7_read]

/-- The row column with its trailing unit axis. -/
theorem v14_read (b : Fin 512) (s : Fin 2048) (z : Fin 1) :
    val_main_v14 (F := Ideal) (ix3 b s z) = BitVec.ofNat 32 b.val := by
  rw [val_main_v14_apply]
  have e : idx_main_v14 (ix3 b s z) = ix2 b s :=
    funext fun c => Fin.ext (by match c with | ⟨0, _⟩ => rfl | ⟨1, _⟩ => rfl)
  rw [e, v13_read]

/-- The word column with its trailing unit axis. -/
theorem v15_read (a : IVec SA 32) (h : InRange a) (b : Fin 512) (s : Fin 2048) (z : Fin 1) :
    val_main_v15 (F := Ideal) a (ix3 b s z) = a (ix2 b s) := by
  rw [val_main_v15_apply]
  have e : idx_main_v15 (ix3 b s z) = ix2 b s :=
    funext fun c => Fin.ext (by match c with | ⟨0, _⟩ => rfl | ⟨1, _⟩ => rfl)
  rw [e, v12_read a h]

/-- The index table's first column: the row number. -/
theorem v16_read_row (a : IVec SA 32) (b : Fin 512) (s : Fin 2048) :
    val_main_v16 (F := Ideal) a (ix3 b s 0) = BitVec.ofNat 32 b.val := by
  unfold val_main_v16
  refine (concatenate_pair_apply_left (2 : Fin 3) (val_main_v14 (F := Ideal)) (val_main_v15 (F := Ideal) a)
    Facts₀.concatenates_S512x2048x1_S512x2048x1_S512x2048x2_d2 (ix3 b s (0 : Fin 2)) rfl (ix3 b s (0 : Fin 1))
    (fun c => by match c with | ⟨0, _⟩ => rfl | ⟨1, _⟩ => rfl | ⟨2, _⟩ => rfl)).trans ?_
  exact v14_read b s 0

/-- The index table's second column: the token's word. -/
theorem v16_read_word (a : IVec SA 32) (h : InRange a) (b : Fin 512) (s : Fin 2048) :
    val_main_v16 (F := Ideal) a (ix3 b s 1) = a (ix2 b s) := by
  unfold val_main_v16
  refine (concatenate_pair_apply_right (2 : Fin 3) (val_main_v14 (F := Ideal)) (val_main_v15 (F := Ideal) a)
    Facts₀.concatenates_S512x2048x1_S512x2048x1_S512x2048x2_d2 (ix3 b s (1 : Fin 2)) rfl rfl (ix3 b s (0 : Fin 1))
    (fun c hc => by match c, hc with | ⟨0, _⟩, _ => rfl | ⟨1, _⟩, _ => rfl | ⟨2, _⟩, hc => exact absurd rfl hc)
    rfl).trans ?_
  exact v15_read a h b s 0

/-- The reference's scatter is the pair scatter: both histogram axes scattered, no window. -/
theorem scatter_eq :
    scatter_S512x50257_S512x2048x2_S512x2048_n_01_01_2 =
      pairScatter Facts₀.scatter_S512x50257_S512x2048x2_S512x2048_n_01_01_2_wf := rfl

/-- Token (row `b'`, position `s`) lands on the cell (row `b`, word `v`) exactly when it is in that row and is that word. -/
theorem lands_iff (a : IVec SA 32) (h : InRange a) (b' : Fin 512) (s : Fin 2048) (b : Fin 512) (v : Fin 50257) :
    scatter_S512x50257_S512x2048x2_S512x2048_n_01_01_2.resultIdx? (ix2 b' s) (val_main_v16 (F := Ideal) a) = some (ix2 b v) ↔
      (b'.val = b.val ∧ (a (ix2 b' s)).toInt = (v.val : ℤ)) := by
  rw [scatter_eq, resultIdx_iff]
  show (val_main_v16 (F := Ideal) a (ix3 b' s 0)).toInt = (b.val : ℤ) ∧ (val_main_v16 (F := Ideal) a (ix3 b' s 1)).toInt = (v.val : ℤ) ↔ _
  rw [v16_read_row, v16_read_word a h, StableHlo.Predicate.toInt_ofNat_small b'.val (by have := b'.isLt; omega)]
  constructor
  · rintro ⟨h0, h1⟩; exact ⟨by omega, h1⟩
  · rintro ⟨h0, h1⟩; exact ⟨by omega, h1⟩

/-- The scatter-add's result at the cell (row `b`, word `v`): it starts from zero and receives exactly the weights
    of the row's tokens that are the word `v`, which is the histogram's cell. -/
theorem v17_read (a : IVec SA 32) (w : FVec Ideal SA .f32) (h : InRange a) (b : Fin 512) (v : Fin 50257) :
    val_main_v17 (F := Ideal) a w (ix2 b v) = hist a w b v.val := by
  unfold val_main_v17 Host.scatterAdd
  rw [Ideal.hostScatterAdd_def]
  unfold Ideal.hostScatterAdd
  rw [val_main_v2_apply, val_main_cst_apply, Ideal.ofBits_def, Ideal.ofBits_zero_f32, zero_add]
  refine sum_filter_eq_hist a w h _ b v (fun j => ?_)
  obtain ⟨b', s, rfl⟩ : ∃ (b' : Fin 512) (s : Fin 2048), j = ix2 b' s := ⟨j 0, j 1, eq_ix2 j⟩
  exact lands_iff a h b' s b v

/-- The histogram's row sum, broadcast back over the row: when every token is a word of the vocabulary it is the
    row's total weight. -/
theorem v20_read (a : IVec SA 32) (w : FVec Ideal SA .f32) (h : InRange a) (b : Fin 512) (v : Fin 50257) :
    val_main_v20 (F := Ideal) a w (ix2 b v) = total w b := by
  rw [val_main_v20_apply, val_main_v19_apply, val_main_v18_apply, val_main_cst_3_apply, Ideal.ofBits_def,
    Ideal.ofBits_zero_f32, zero_add, ← sum_hist_eq_total a w h b]
  refine Finset.sum_congr rfl fun k _ => ?_
  have e : idx_main_v18 (idx_main_v19 (idx_main_v20 (ix2 b v))) k = ix2 b k :=
    funext fun c => Fin.ext (by match c with | ⟨0, _⟩ => rfl | ⟨1, _⟩ => rfl)
  rw [e, v17_read a w h]

/-- The reference's result is the frequency table: each row's histogram over the row's total weight. -/
theorem ref_eq (a : IVec Cert.Hist.SA 32) (w : FVec Ideal Cert.Hist.SA .f32) (h : Cert.Hist.InRange a) :
    Cert.ReferenceIdeal.Read.val_main_v21 (F := Ideal) a w = Cert.Hist.freq a w := by
  funext i
  obtain ⟨b, v, rfl⟩ : ∃ (b : Fin 512) (v : Fin 50257), i = ix2 b v := ⟨i 0, i 1, eq_ix2 i⟩
  rw [val_main_v21_apply, Ideal.hostDivf_def, v17_read a w h, v20_read a w h]
  rfl

end Cert.ReferenceIdeal.RefValue
end
-- ==== Proof.KernelBody.lean ====
import proofs.«403574_j5471788335935_2_alg».proof.Proof.HistSpec
import proofs.«403574_j5471788335935_2_alg».proof.Proof.Gen.KernelIdeal.Frame
import Idealize.ShloMosaic.Lib.Pipeline.Value
import Idealize.ShloMosaic.Lib.ValueLayout

/-!
# What one grid point of the histogram kernel writes

Grid point (i₀, i₁) holds 32 rows of tokens and weights (all 2048 positions) and the rows' total weights, and writes
the 32 × 128 block of the table at rows `32 · i₀` on and words `128 · i₁` on. The body walks the positions 256 at a
time in eight trips; a trip adds, into each cell, the weights of its tokens equal to the cell's word (the equality mask
as 0/1 times the weight, summed over the trip's positions). After the trips each cell is divided by its row's total.
On the extended reals a cell therefore ends at the weight of the row's tokens equal to its word, over the row's total:
the eight partial sums are one sum over the positions, by associativity alone.
-/

set_option maxRecDepth 16384

noncomputable section

namespace Cert.KernelIdeal.HistBody

open Idealize.ShloMosaic Idealize.ShloMosaic.TcCoe Idealize.ShloMosaic.ValueIdx
open Cert.KernelIdeal Cert.KernelIdeal.Gen

/-- One cell of the block a grid point writes: the weight of block row `p`'s tokens equal to the word
    `col0 + q`, over the row's total weight as the point was handed it. -/
def cellVal (col0 : ℕ) (x0 : Vec Ideal S32x2048 .i32) (x1 : Vec Ideal S32x2048 .f32) (x2 : Vec Ideal S32x1 .f32)
    (p : Fin 32) (q : Fin 128) : EReal :=
  Ideal.div (∑ s : Fin 2048, if x0 (ix2 p s) = BitVec.ofNat 32 (col0 + q.val) then x1 (ix2 p s) else 0) (x2 (ix2 p 0))

/-- The block grid point `i` writes, from its three input blocks: 32 rows by the 128 words from `128 · i₁` on. -/
def blockVal (i : grid0.Coords) (x0 : Vec Ideal S32x2048 .i32) (x1 : Vec Ideal S32x2048 .f32) (x2 : Vec Ideal S32x1 .f32) :
    Vec Ideal S32x128 .f32 :=
  fun y => cellVal (128 * (i 1).val) x0 x1 x2 (y 0) (y 1)

/-! ## The body's arithmetic at one cell, on the extended reals -/

section Layout
variable {α : Type}

/-- A [32,256] vector viewed [32,256,1] and laid along 128 lanes reads, at (p, r, q), the vector at (p, r). -/
theorem tokens_along_lanes (x : S32x256.Idx → α) (p : Fin 32) (r : Fin 256) (q : Fin 128) :
    broadcastTo S32x256x128 (shapeCast S32x256x1 x shapeCasts_S32x256_S32x256x1) broadcasts_S32x256x1_S32x256x128 (ix3 p r q)
      = x (ix2 p r) := by
  refine (broadcastTo_apply _ broadcasts_S32x256x1_S32x256x128 (ix3 p r q) (ix3 p r (0 : Fin 1)) (fun a => ?_)).trans ?_
  · match a with
    | ⟨0, _⟩ => show p.val = if (32 : Nat) = 1 then 0 else p.val; rw [if_neg (by decide)]
    | ⟨1, _⟩ => show r.val = if (256 : Nat) = 1 then 0 else r.val; rw [if_neg (by decide)]
    | ⟨2, _⟩ => show 0 = if (1 : Nat) = 1 then 0 else q.val; rw [if_pos rfl]
  · refine shapeCast_apply x shapeCasts_S32x256_S32x256x1 (ix3 p r (0 : Fin 1)) (ix2 p r) ?_
    rw [Shape.rowMajor_val_two, Shape.rowMajor_val_three]
    show p.val * 256 + r.val = (p.val * 256 + r.val) * 1 + 0
    omega

/-- A [1,1,128] lane vector laid over [32,256,128] reads, at (p, r, q), lane q. -/
theorem lanes_over_tokens (y : S1x1x128.Idx → α) (p : Fin 32) (r : Fin 256) (q : Fin 128) :
    broadcastTo S32x256x128 y broadcasts_S1x1x128_S32x256x128 (ix3 p r q) = y (ix3 (0 : Fin 1) (0 : Fin 1) q) := by
  refine broadcastTo_apply _ broadcasts_S1x1x128_S32x256x128 (ix3 p r q) (ix3 (0 : Fin 1) (0 : Fin 1) q) (fun a => ?_)
  match a with
  | ⟨0, _⟩ => show 0 = if (1 : Nat) = 1 then 0 else p.val; rw [if_pos rfl]
  | ⟨1, _⟩ => show 0 = if (1 : Nat) = 1 then 0 else r.val; rw [if_pos rfl]
  | ⟨2, _⟩ => show q.val = if (128 : Nat) = 1 then 0 else q.val; rw [if_neg (by decide)]

end Layout

/-- The word of the vocabulary a block column stands for: the block's first column plus the lane; nothing wraps. -/
theorem col_word (i1 : Fin 393) (q : Fin 128) :
    IntOp.addi (Scalar.muli (BitVec.ofNat 32 i1.val) 128#32) (BitVec.ofNat 32 q.val) = BitVec.ofNat 32 (128 * i1.val + q.val) := by
  apply BitVec.eq_of_toNat_eq
  have h1 := i1.isLt
  have h2 := q.isLt
  simp only [IntOp.addi, Scalar.muli, IntOp.muli, BitVec.toNat_add, BitVec.toNat_mul, BitVec.toNat_ofNat]
  omega

/-- The equality mask, widened and converted, times a weight: the weight where the words agree, zero elsewhere. -/
theorem mask_mul (A W : BitVec 32) (x : EReal) :
    ((((IntOp.cmpi .eq A W).setWidth 32).toInt : ℝ) : EReal) * x = if A = W then x else 0 := by
  by_cases h : A = W
  · subst h
    rw [if_pos rfl]
    have : (IntOp.cmpi .eq A A).setWidth 32 = 1#32 := by simp [IntOp.cmpi]
    rw [this]
    simp
  · rw [if_neg h]
    have hb : (A == W) = false := by simpa using h
    have : (IntOp.cmpi .eq A W).setWidth 32 = 0#32 := by simp [IntOp.cmpi, hb]
    rw [this]
    simp

/-- One trip of the accumulation: the carried cell plus the weight of the trip's 256 tokens that are the column's word. -/
theorem pay2_apply (i : grid0.Coords) (acc : FVec Ideal S32x128 .f32) (v15 : Vec Ideal S32x256 .i32) (v17 : Vec Ideal S32x256 .f32)
    (p : Fin 32) (q : Fin 128) :
    k0_pay2 (F := Ideal) i acc v15 v17 (ix2 p q)
      = acc (ix2 p q) + ∑ r : Fin 256, if v15 (ix2 p r) = BitVec.ofNat 32 (128 * (i 1).val + q.val) then v17 (ix2 p r) else 0 := by
  unfold k0_pay2
  dsimp only
  refine congrArg (acc (ix2 p q) + ·) ?_
  refine (Ideal.multiReduction_add_single _ 0x00000000#32 reduces_S32x256x128_S32x128 _ _ (ix2 p q)).trans ?_
  show ∑ r : Fin 256, _ = _
  refine Finset.sum_congr rfl fun r _ => ?_
  have hl : reduces_S32x256x128_S32x128.lift (ix2 p q) r = ix3 p r q :=
    funext fun a => Fin.ext (by match a with | ⟨0, _⟩ => rfl | ⟨1, _⟩ => rfl | ⟨2, _⟩ => rfl)
  rw [hl]
  show ((((IntOp.cmpi .eq
        (broadcastTo S32x256x128 (shapeCast S32x256x1 v15 shapeCasts_S32x256_S32x256x1) broadcasts_S32x256x1_S32x256x128 (ix3 p r q))
        (broadcastTo S32x256x128 (addi (broadcast S1x1x128 (Scalar.muli (BitVec.ofNat 32 (i 1).val) 128#32))
            (iota Kind.tc S1x1x128 32 [2] iota_S1x1x128_d2_w32)) broadcasts_S1x1x128_S32x256x128 (ix3 p r q))).setWidth 32).toInt : ℝ) : EReal)
      * broadcastTo S32x256x128 (shapeCast S32x256x1 v17 shapeCasts_S32x256_S32x256x1) broadcasts_S32x256x1_S32x256x128 (ix3 p r q) = _
  rw [tokens_along_lanes, tokens_along_lanes, lanes_over_tokens, mask_mul]
  show (if v15 (ix2 p r) = IntOp.addi (Scalar.muli (BitVec.ofNat 32 (i 1).val) 128#32)
      (iota Kind.tc S1x1x128 32 [2] iota_S1x1x128_d2_w32 (ix3 (0 : Fin 1) (0 : Fin 1) q)) then _ else _) = _
  rw [iota_single_apply]
  show (if v15 (ix2 p r) = IntOp.addi (Scalar.muli (BitVec.ofNat 32 (i 1).val) 128#32) (BitVec.ofNat 32 q.val) then _ else _) = _
  rw [col_word (i 1) q]

/-- The last step at one cell: the accumulated cell over the row's total weight. -/
theorem pay3_apply (v6 : FVec Ideal S32x128 .f32) (v7 : Vec Ideal S32x1 .f32) (p : Fin 32) (q : Fin 128) :
    k0_pay3 (F := Ideal) v6 v7 (ix2 p q) = Ideal.div (v6 (ix2 p q)) (v7 (ix2 p (0 : Fin 1))) := by
  unfold k0_pay3
  show Ideal.div (v6 (ix2 p q)) (broadcastTo S32x128 (shapeCast S32x1 v7 shapeCasts_S32x1_S32x1) broadcasts_S32x1_S32x128 (ix2 p q)) = _
  rw [shapeCast_self]
  refine congrArg (Ideal.div (v6 (ix2 p q))) ?_
  refine broadcastTo_apply _ broadcasts_S32x1_S32x128 (ix2 p q) (ix2 p (0 : Fin 1)) (fun a => ?_)
  match a with
  | ⟨0, _⟩ => show p.val = if (32 : Nat) = 1 then 0 else p.val; rw [if_neg (by decide)]
  | ⟨1, _⟩ => show 0 = if (1 : Nat) = 1 then 0 else q.val; rw [if_pos rfl]

/-! ## The eight trips and the block -/

/-- A trip's load of 256 columns from column `256 · k` on reads the block at those columns. -/
theorem chunk_read {Val : EltTy → Type} {e : EltTy} (x : S32x2048.Idx → Val e) (k : Fin k0_t1_loop.trips) (p : Fin 32) (r : Fin 256)
    (h : 256 * k.val + r.val < 2048) :
    View.ld (Val := Val) x (Rect.unit (s := S32x2048) (k0_off1 k) S32x256.size (k0_off1_inb k)) (ix2 p r) = x (ix2 p ⟨256 * k.val + r.val, h⟩) := by
  refine congrArg x (funext fun a => Fin.ext ?_)
  match a with
  | ⟨0, _⟩ =>
    show (k0_off1 k) 0 + 1 * p.val = p.val
    rw [k0_off1_eq]; simp
  | ⟨1, _⟩ =>
    show (k0_off1 k) 1 + 1 * r.val = 256 * k.val + r.val
    rw [k0_off1_eq]; simp

theorem trips_eq : k0_t1_loop.trips = 8 := by decide

/-- What one trip yields is the trip's arithmetic of the carried value and the two loads at the trip's columns. -/
theorem trip_eq (𝒱 : Variants) (c : Dev nD) (bd : Option 𝒱.V) (i : grid0.Coords) (arg2 : Memref sig .tc .vmem S32x2048 .i32) (harg2 : arg2.IsWhole) (arg3 : Memref sig .tc .vmem S32x2048 .f32) (harg3 : arg3.IsWhole) (arg4 : Memref sig .tc .vmem S32x1 .f32) (harg4 : arg4.IsWhole) (arg5 : Memref sig .tc .vmem S32x128 .f32) (harg5 : arg5.IsWhole)
    (x0 : Vec Ideal S32x2048 .i32) (x1 : Vec Ideal S32x2048 .f32) (k : Fin k0_t1_loop.trips) (acc : FVec Ideal S32x128 .f32) :
    tripR_k0_t1 (F := Ideal) 𝒱 c bd i arg2 harg2 arg3 harg3 arg4 harg4 arg5 harg5 (harg2.unread x0) (harg3.unread x1) k acc
      = k0_pay2 i acc (View.ld x0 (Rect.unit (s := S32x2048) (k0_off1 k) S32x256.size (k0_off1_inb k)))
          (View.ld x1 (Rect.unit (s := S32x2048) (k0_off1 k) S32x256.size (k0_off1_inb k))) := by
  unfold tripR_k0_t1 trip_k0_t1
  dsimp only
  rw [View.readAt_eq_ld, View.readAt_eq_ld, harg2.read_unread, harg3.read_unread]

/-- The weight of block row `p`'s token at position `s` if it is the word `W`, zero past the row's end. -/
def term (x0 : Vec Ideal S32x2048 .i32) (x1 : Vec Ideal S32x2048 .f32) (W : BitVec 32) (p : Fin 32) (s : ℕ) : EReal :=
  if h : s < 2048 then (if x0 (ix2 p ⟨s, h⟩) = W then x1 (ix2 p ⟨s, h⟩) else 0) else 0

/-- Before trip `k` the carried cell holds the weight found in the first `256 · k` positions. -/
theorem carried_eq (c : Dev nD) (i : grid0.Coords) (arg2 : Memref sig .tc .vmem S32x2048 .i32) (harg2 : arg2.IsWhole) (arg3 : Memref sig .tc .vmem S32x2048 .f32) (harg3 : arg3.IsWhole) (arg4 : Memref sig .tc .vmem S32x1 .f32) (harg4 : arg4.IsWhole) (arg5 : Memref sig .tc .vmem S32x128 .f32) (harg5 : arg5.IsWhole)
    (x0 : Vec Ideal S32x2048 .i32) (x1 : Vec Ideal S32x2048 .f32) (p : Fin 32) (q : Fin 128) :
    ∀ k : ℕ, k ≤ 8 →
      st_k0_t1 (F := Ideal) Variants.none c none i arg2 harg2 arg3 harg3 arg4 harg4 arg5 harg5 (harg2.unread x0) (harg3.unread x1) (k0_pay1 (F := Ideal)) k (ix2 p q)
        = Cert.Hist.chunked (term x0 x1 (BitVec.ofNat 32 (128 * (i 1).val + q.val)) p) k
  | 0, _ => by
    rw [st_k0_t1_zero]
    show Ideal.ofBits .f32 0x00000000#32 = 0
    exact Ideal.ofBits_zero_f32
  | k + 1, hk => by
    have hlt : k < k0_t1_loop.trips := by rw [trips_eq]; omega
    have e := st_k0_t1_succ (F := Ideal) Variants.none c none i arg2 harg2 arg3 harg3 arg4 harg4 arg5 harg5 (harg2.unread x0) (harg3.unread x1) (k0_pay1 (F := Ideal)) ⟨k, hlt⟩
    rw [show (⟨k, hlt⟩ : Fin k0_t1_loop.trips).val + 1 = k + 1 from rfl] at e
    rw [e, trip_eq, pay2_apply, carried_eq c i arg2 harg2 arg3 harg3 arg4 harg4 arg5 harg5 x0 x1 p q k (by omega), Cert.Hist.chunked]
    refine congrArg (_ + ·) (Finset.sum_congr rfl fun r _ => ?_)
    have hr := r.isLt
    have hs : 256 * k + r.val < 2048 := by omega
    rw [chunk_read (Val := Elt Ideal) x0 ⟨k, hlt⟩ p r hs, chunk_read (Val := Elt Ideal) x1 ⟨k, hlt⟩ p r hs]
    unfold term
    rw [dif_pos hs]

/-- What the kernel body leaves in its output block is that block: one store of the whole block, of the eight trips'
    accumulated weights over the row totals. -/
theorem out_eq (c : Dev nD) (i : grid0.Coords) (arg2 : Memref sig .tc .vmem S32x2048 .i32) (harg2 : arg2.IsWhole) (arg3 : Memref sig .tc .vmem S32x2048 .f32) (harg3 : arg3.IsWhole) (arg4 : Memref sig .tc .vmem S32x1 .f32) (harg4 : arg4.IsWhole) (arg5 : Memref sig .tc .vmem S32x128 .f32) (harg5 : arg5.IsWhole)
    (x0 : Vec Ideal S32x2048 .i32) (x1 : Vec Ideal S32x2048 .f32) (x2 : Vec Ideal S32x1 .f32) :
    out0_A_3 (F := Ideal) c i arg2 harg2 arg3 harg3 arg4 harg4 arg5 harg5 x0 x1 x2 = blockVal i x0 x1 x2 := by
  have hz2 : (![0, 0] : Fin 2 → Nat) = fun _ => 0 := funext fun a => by match a with | ⟨0, _⟩ => rfl | ⟨1, _⟩ => rfl
  have e8 : Scf.trips (0#32) (Scalar.addi 0#32 8#32) 1#32 = 8 := trips_eq
  unfold out0_A_3
  rw [View.read_writes_eq_canon _ _ _ (cover0_A_3 c i arg2 harg2 arg3 harg3 arg4 harg4 arg5 harg5 x0 x1 x2)]
  unfold kernelRun0_A
  dsimp only
  rw [View.canon_unit_zero (S := S32x128) hz2, View.readAt_eq_ld, harg4.read_unread, View.ld_unit_zero (S := S32x1) hz2, e8]
  funext y
  obtain ⟨p, q, rfl⟩ : ∃ (p : Fin 32) (q : Fin 128), y = ix2 p q := ⟨y 0, y 1, eq_ix2 y⟩
  rw [pay3_apply, carried_eq c i arg2 harg2 arg3 harg3 arg4 harg4 arg5 harg5 x0 x1 p q 8 le_rfl]
  show _ = cellVal (128 * (i 1).val) x0 x1 x2 p q
  unfold cellVal
  refine congrArg (Ideal.div · (x2 (ix2 p (0 : Fin 1)))) ?_
  exact Cert.Hist.chunked_eight (fun s => if x0 (ix2 p s) = BitVec.ofNat 32 (128 * (i 1).val + q.val) then x1 (ix2 p s) else 0)

end Cert.KernelIdeal.HistBody
end
-- ==== Proof.KernelValue.lean ====
import proofs.«403574_j5471788335935_2_alg».proof.Proof.HistSpec
import proofs.«403574_j5471788335935_2_alg».proof.Proof.KernelBody
import proofs.«403574_j5471788335935_2_alg».proof.Proof.Gen.KernelIdeal.Frame
import Idealize.ShloMosaic.Lib.Pipeline.Value
import Idealize.ShloMosaic.Lib.ValueLayout
import Idealize.ShloMosaic.PureOps.Ideal.Laws
import Idealize.ShloMosaic.Lib.Tactic

/-!
# The kernel's result array is the frequency table of its two arguments

The program sums each row of the weights on the host, broadcasts the sums to a column, runs the histogram kernel
over a 16 × 393 grid of blocks (32 rows by 128 vocabulary words each) into a padded array of 50304 columns, and
slices the first 50257 columns out.

* The column the kernel is handed holds, at row `b`, the row's total weight: the host's sum from zero over the
  2048 positions.
* At grid point `(i₀, i₁)` the token, weight and row-sum blocks are rows `32·i₀ … 32·i₀ + 31` of their arrays,
  and the output block sits at those rows and at columns `128·i₁ … 128·i₁ + 127`. So the cell `(p, q)` the point
  writes — the weight of block row `p`'s tokens equal to the word `128·i₁ + q`, over the row's total — is the value
  at row `32·i₀ + p`, column `128·i₁ + q` of ONE function `KG` of the two argument arrays.
* Row `r`, column `v` of the padded array lies in the block of point `(r / 32, v / 128)`, so the blocks cover it and
  it ends holding `KG` everywhere.
* The slice reads `KG` at the same coordinates, which is the frequency table by definition.
-/

set_option maxRecDepth 16384

noncomputable section

namespace Cert.KernelIdeal.HistValue

open Idealize.ShloMosaic Idealize.ShloMosaic.TcCoe Idealize.ShloMosaic.ValueIdx Idealize.SL.Sem Idealize.ShloMosaic.StableHlo
open Idealize.ShloMosaic.Pipeline (Dat)
open Cert.KernelIdeal Cert.KernelIdeal.Gen Cert.KernelIdeal.HistBody

variable (m : (ℓ : Loc nD τ sig) → Buf (Elt Ideal) ℓ) (ρ : Dev nD → PrngReg)

/-! ## The row sums the host computes before the region -/

/-- The array the third window stages is the host's row sum of the weights, broadcast to a column. -/
theorem rowsum_term (c : Dev nD) :
    (V m c main_v1 : S512x1.Idx → EReal) =
      broadcastInDim S512x1 ![0] bcast_S512_S512x1_0 (Host.reduceAdd (F := Ideal) (m ((c : Thread nD τ).loc main_arg1)) (constant (F := Ideal) S_ .f32 0x00000000#32) reducesTo_S512x2048_S512_d1 h_S_) := by
  show StableHlo.after hostOps0 (fun b => m (c, b)) (Proc.devRef .tc main_v1) = _
  after_results

/-- The host's sum of a row of weights from zero is the row's total weight. -/
theorem reduce_apply (w : S512x2048.Idx → EReal) (b : Fin 512) :
    Host.reduceAdd (F := Ideal) w (constant (F := Ideal) S_ .f32 0x00000000#32) reducesTo_S512x2048_S512_d1 h_S_ (ix1 b) = Cert.Hist.total w b := by
  simp only [Host.reduceAdd, Ideal.hostReduceAdd_def]
  rw [Ideal.hostReduceAdd_single reducesTo_S512x2048_S512_d1 (by decide)]
  show Ideal.ofBits .f32 0x00000000#32 + _ = _
  rw [Ideal.ofBits_zero_f32, zero_add]
  unfold Cert.Hist.total
  refine Finset.sum_congr rfl fun k _ => ?_
  exact congrArg w (funext fun a => Fin.ext (by match a with | ⟨0, _⟩ => rfl | ⟨1, _⟩ => rfl))

/-- Read at a row: the staged column holds the row's total weight. -/
theorem rowsum_apply (c : Dev nD) (b : Fin 512) :
    (V m c main_v1 : S512x1.Idx → EReal) (ix2 b 0) = Cert.Hist.total (m ((c : Thread nD τ).loc main_arg1)) b := by
  rw [rowsum_term]
  refine (broadcastInDim_apply _ bcast_S512_S512x1_0 _ (ix2 b 0) (ix1 b) (fun a => match a with
    | ⟨0, _⟩ => by show b.val = if (512 : Nat) = 1 then 0 else b.val; rw [if_neg (by decide)])).trans ?_
  exact reduce_apply _ b

/-! ## Where each window's block sits -/

/-- The token, weight and row-sum windows move with the first grid coordinate only. -/
theorem tr0_eq (i : grid0.Coords) : cc0_transform_0 i = ![(i 0).val, 0] := by
  have h : (i 0).val < 16 := (i 0).isLt
  unfold cc0_transform_0
  simp only [BitVec.toNat_ofNat]
  rw [Nat.mod_eq_of_lt (by omega)]
theorem tr1_eq (i : grid0.Coords) : cc0_transform_1 i = ![(i 0).val, 0] := by
  have h : (i 0).val < 16 := (i 0).isLt
  unfold cc0_transform_1
  simp only [BitVec.toNat_ofNat]
  rw [Nat.mod_eq_of_lt (by omega)]
theorem tr2_eq (i : grid0.Coords) : cc0_transform_2 i = ![(i 0).val, 0] := by
  have h : (i 0).val < 16 := (i 0).isLt
  unfold cc0_transform_2
  simp only [BitVec.toNat_ofNat]
  rw [Nat.mod_eq_of_lt (by omega)]
/-- The output window moves with both. -/
theorem tr3_eq (i : grid0.Coords) : cc0_transform_3 i = ![(i 0).val, (i 1).val] := by
  have h : (i 0).val < 16 := (i 0).isLt
  have h' : (i 1).val < 393 := (i 1).isLt
  unfold cc0_transform_3
  simp only [BitVec.toNat_ofNat]
  rw [Nat.mod_eq_of_lt (by omega), Nat.mod_eq_of_lt (by omega)]

theorem idx0 (t : Fin cfg0.N) : win0_0.index t (0 : Fin 2) = (grid0.coords t 0).val ∧ win0_0.index t (1 : Fin 2) = 0 := by
  have e : win0_0.index t = cc0_transform_0 (grid0.coords t) := rfl
  rw [e, tr0_eq]
  exact ⟨rfl, rfl⟩
theorem idx1 (t : Fin cfg0.N) : win0_1.index t (0 : Fin 2) = (grid0.coords t 0).val ∧ win0_1.index t (1 : Fin 2) = 0 := by
  have e : win0_1.index t = cc0_transform_1 (grid0.coords t) := rfl
  rw [e, tr1_eq]
  exact ⟨rfl, rfl⟩
theorem idx2 (t : Fin cfg0.N) : win0_2.index t (0 : Fin 2) = (grid0.coords t 0).val ∧ win0_2.index t (1 : Fin 2) = 0 := by
  have e : win0_2.index t = cc0_transform_2 (grid0.coords t) := rfl
  rw [e, tr2_eq]
  exact ⟨rfl, rfl⟩
theorem idx3 (t : Fin cfg0.N) : win0_3.index t (0 : Fin 2) = (grid0.coords t 0).val ∧ win0_3.index t (1 : Fin 2) = (grid0.coords t 1).val := by
  have e : win0_3.index t = cc0_transform_3 (grid0.coords t) := rfl
  rw [e, tr3_eq]
  exact ⟨rfl, rfl⟩

/-! ## The input blocks as rows of the arrays -/

/-- The token window's block at a point: 32 whole rows of the token array. -/
theorem iblk0_apply (c : Dev nD) (t : Fin cfg0.N) (p : Fin 32) (s : Fin 2048) (b : Fin 512)
    (hb : b.val = 32 * (grid0.coords t 0).val + p.val) :
    (iblk m c 0 t : Vec Ideal S32x2048 .i32) (ix2 p s) = (m ((c : Thread nD τ).loc main_arg0) : S512x2048.Idx → BitVec 32) (ix2 b s) := by
  obtain ⟨e0, e1⟩ := idx0 t
  unfold iblk
  rw [View.read_apply]
  show V m c main_arg0 _ = _
  rw [V_main_arg0]
  congr 1
  funext a
  apply Fin.ext
  match a with
  | ⟨0, _⟩ => show win0_0.index t 0 * 32 + 1 * p.val = b.val; rw [e0, hb]; omega
  | ⟨1, _⟩ => show win0_0.index t 1 * 2048 + 1 * s.val = s.val; rw [e1]; omega

/-- The weight window's block at a point: the same 32 rows of the weight array. -/
theorem iblk1_apply (c : Dev nD) (t : Fin cfg0.N) (p : Fin 32) (s : Fin 2048) (b : Fin 512)
    (hb : b.val = 32 * (grid0.coords t 0).val + p.val) :
    (iblk m c 1 t : Vec Ideal S32x2048 .f32) (ix2 p s) = (m ((c : Thread nD τ).loc main_arg1) : S512x2048.Idx → EReal) (ix2 b s) := by
  obtain ⟨e0, e1⟩ := idx1 t
  unfold iblk
  rw [View.read_apply]
  show V m c main_arg1 _ = _
  rw [V_main_arg1]
  congr 1
  funext a
  apply Fin.ext
  match a with
  | ⟨0, _⟩ => show win0_1.index t 0 * 32 + 1 * p.val = b.val; rw [e0, hb]; omega
  | ⟨1, _⟩ => show win0_1.index t 1 * 2048 + 1 * s.val = s.val; rw [e1]; omega

/-- The row-sum window's block at a point: the total weights of those 32 rows. -/
theorem iblk2_apply (c : Dev nD) (t : Fin cfg0.N) (p : Fin 32) (b : Fin 512)
    (hb : b.val = 32 * (grid0.coords t 0).val + p.val) :
    (iblk m c 2 t : Vec Ideal S32x1 .f32) (ix2 p 0) = Cert.Hist.total (m ((c : Thread nD τ).loc main_arg1)) b := by
  obtain ⟨e0, e1⟩ := idx2 t
  unfold iblk
  rw [View.read_apply]
  show (V m c main_v1 : S512x1.Idx → EReal) _ = _
  refine Eq.trans ?_ (rowsum_apply m c b)
  congr 1
  funext a
  apply Fin.ext
  match a with
  | ⟨0, _⟩ => show win0_2.index t 0 * 32 + 1 * p.val = b.val; rw [e0, hb]; omega
  | ⟨1, _⟩ => show win0_2.index t 1 * 1 + 1 * 0 = 0; rw [e1]

/-! ## The padded output as one function of the two arrays -/

/-- The padded output array [512, 50304]: at row `b` and column `v` the weight of row `b`'s tokens equal to the
    word `v`, over the row's total weight. (Past the vocabulary's end no in-range token matches; the columns are
    there and the slice drops them.) -/
def KG (a : IVec Cert.Hist.SA 32) (w : Cert.Hist.SA.Idx → EReal) : S512x50304.Idx → EReal :=
  fun r => Ideal.div (Cert.Hist.hist a w (r 0) (r 1).val) (Cert.Hist.total w (r 0))

/-- One cell of a point's block, once its three input blocks are known to be rows of the arrays: the padded
    output at that row and column. -/
theorem cell_eq (col0 : ℕ) (x0 : Vec Ideal S32x2048 .i32) (x1 : Vec Ideal S32x2048 .f32) (x2 : Vec Ideal S32x1 .f32)
    (a : IVec Cert.Hist.SA 32) (w : Cert.Hist.SA.Idx → EReal) (p : Fin 32) (q : Fin 128) (b : Fin 512)
    (h0 : ∀ s : Fin 2048, x0 (ix2 p s) = a (ix2 b s)) (h1 : ∀ s : Fin 2048, x1 (ix2 p s) = w (ix2 b s))
    (h2 : x2 (ix2 p 0) = Cert.Hist.total w b) :
    cellVal col0 x0 x1 x2 p q = Ideal.div (Cert.Hist.hist a w b (col0 + q.val)) (Cert.Hist.total w b) := by
  unfold cellVal Cert.Hist.hist
  rw [h2]
  refine congrArg (fun z => Ideal.div z _) (Finset.sum_congr rfl fun s _ => ?_)
  rw [h0, h1]

/-- What a point writes back is its block of the padded output. -/
theorem flushed_eq (c : Dev nD) (t : Fin cfg0.N) :
    (dats m 0 c).flushed 3 t = ((cfg0.win 3).blk t).view.read (Elt Ideal) (KG (m ((c : Thread nD τ).loc main_arg0)) (m ((c : Thread nD τ).loc main_arg1))) := by
  show (cfg0.win 3).cut (grid0.coords t) ((dats m 0 c).after 3 t) = _
  rw [after0_3]
  unfold outsAt0
  rw [out_eq]
  funext j
  rw [View.read_apply]
  have hj0 : (j 0).val < 32 := (j 0).isLt
  have hj1 : (j 1).val < 128 := (j 1).isLt
  show cellVal (128 * (grid0.coords t 1).val) (iblk m c 0 t) (iblk m c 1 t) (iblk m c 2 t) ⟨(j 0).val, hj0⟩ ⟨(j 1).val, hj1⟩
    = KG (m ((c : Thread nD τ).loc main_arg0)) (m ((c : Thread nD τ).loc main_arg1)) (((cfg0.win 3).blk t).view.emb j)
  obtain ⟨e0, e1⟩ := idx3 t
  have hc0 : (grid0.coords t 0).val < 16 := (grid0.coords t 0).isLt
  have hc1 : (grid0.coords t 1).val < 393 := (grid0.coords t 1).isLt
  have hb : 32 * (grid0.coords t 0).val + (j 0).val < 512 := by omega
  refine (cell_eq (128 * (grid0.coords t 1).val) (iblk m c 0 t) (iblk m c 1 t) (iblk m c 2 t)
    (m ((c : Thread nD τ).loc main_arg0)) (m ((c : Thread nD τ).loc main_arg1)) ⟨(j 0).val, hj0⟩ ⟨(j 1).val, hj1⟩
    ⟨32 * (grid0.coords t 0).val + (j 0).val, hb⟩
    (fun s => iblk0_apply m c t ⟨(j 0).val, hj0⟩ s ⟨32 * (grid0.coords t 0).val + (j 0).val, hb⟩ rfl)
    (fun s => iblk1_apply m c t ⟨(j 0).val, hj0⟩ s ⟨32 * (grid0.coords t 0).val + (j 0).val, hb⟩ rfl)
    (iblk2_apply m c t ⟨(j 0).val, hj0⟩ ⟨32 * (grid0.coords t 0).val + (j 0).val, hb⟩ rfl)).trans ?_
  unfold KG
  have r0 : ((cfg0.win 3).blk t).view.emb j 0 = ⟨32 * (grid0.coords t 0).val + (j 0).val, hb⟩ :=
    Fin.ext (by show win0_3.index t 0 * 32 + 1 * (j 0).val = 32 * (grid0.coords t 0).val + (j 0).val; rw [e0]; omega)
  have r1 : (((cfg0.win 3).blk t).view.emb j 1).val = 128 * (grid0.coords t 1).val + (j 1).val := by
    show win0_3.index t 1 * 128 + 1 * (j 1).val = 128 * (grid0.coords t 1).val + (j 1).val; rw [e1]; omega
  rw [r0, r1]
  rfl

/-! ## The blocks cover the padded output -/

/-- The grid runs the 16 row blocks outermost, the 393 column blocks innermost. -/
theorem coords_val (t : Fin cfg0.N) : (grid0.coords t 0).val = t.val / 393 % 16 ∧ (grid0.coords t 1).val = t.val % 393 := by
  have s0 : grid0.stride 0 = 393 := by decide
  have s1 : grid0.stride 1 = 1 := by decide
  constructor
  · show t.val / grid0.stride 0 % 16 = _
    rw [s0]
  · show t.val / grid0.stride 1 % 393 = _
    rw [s1, Nat.div_one]

/-- An index of the padded output is in point `t`'s block iff each coordinate is in the block's range on its axis. -/
theorem mem_blk (t : Fin cfg0.N) (i : S512x50304.Idx) :
    i ∈ ((cfg0.win 3).blk t).view.set ↔ ∀ a : Fin 2, win0_3.index t a * S32x128.size a ≤ (i a).val ∧ (i a).val < win0_3.index t a * S32x128.size a + S32x128.size a := by
  show i ∈ ((View.whole main_v2).slice (win0_3.rect t)).set ↔ _
  rw [View.set_slice_whole, Rect.mem_set_unit]
  exact Iff.rfl

/-- Every cell of the padded output lies in the block of the point at its row block and column block. -/
theorem cover (i : S512x50304.Idx) : ∃ t : Fin cfg0.N, (cfg0.win 3).flush t = true ∧ i ∈ ((cfg0.win 3).blk t).view.set := by
  have hN : grid0.N = 6288 := N_0
  have hi0 : (i 0).val < 512 := (i 0).isLt
  have hi1 : (i 1).val < 50304 := (i 1).isLt
  have ht : (i 0).val / 32 * 393 + (i 1).val / 128 < grid0.N := by rw [hN]; omega
  refine ⟨⟨(i 0).val / 32 * 393 + (i 1).val / 128, ht⟩, flush0_3 _, ?_⟩
  rw [mem_blk]
  obtain ⟨e0, e1⟩ := idx3 ⟨(i 0).val / 32 * 393 + (i 1).val / 128, ht⟩
  obtain ⟨c0, c1⟩ := coords_val ⟨(i 0).val / 32 * 393 + (i 1).val / 128, ht⟩
  have q0 : ((i 0).val / 32 * 393 + (i 1).val / 128) / 393 % 16 = (i 0).val / 32 := by omega
  have q1 : ((i 0).val / 32 * 393 + (i 1).val / 128) % 393 = (i 1).val / 128 := by omega
  intro a
  match a with
  | ⟨0, _⟩ =>
    show win0_3.index ⟨(i 0).val / 32 * 393 + (i 1).val / 128, ht⟩ 0 * 32 ≤ (i 0).val ∧ (i 0).val < win0_3.index ⟨(i 0).val / 32 * 393 + (i 1).val / 128, ht⟩ 0 * 32 + 32
    rw [e0, c0]; show _ / 393 % 16 * 32 ≤ _ ∧ _ < _ / 393 % 16 * 32 + 32; rw [q0]; omega
  | ⟨1, _⟩ =>
    show win0_3.index ⟨(i 0).val / 32 * 393 + (i 1).val / 128, ht⟩ 1 * 128 ≤ (i 1).val ∧ (i 1).val < win0_3.index ⟨(i 0).val / 32 * 393 + (i 1).val / 128, ht⟩ 1 * 128 + 128
    rw [e1, c1]; show _ % 393 * 128 ≤ _ ∧ _ < _ % 393 * 128 + 128; rw [q1]; omega

/-! ## The array after the region, and the slice after it -/

/-- The padded output array ends holding `KG` of the two argument arrays. -/
theorem final (c : Dev nD) :
    (dats m 0 c).arrAt 3 cfg0.N = KG (m ((c : Thread nD τ).loc main_arg0)) (m ((c : Thread nD τ).loc main_arg1)) :=
  (dats m 0 c).arrAt_eq_of_cover 3 (KG (m ((c : Thread nD τ).loc main_arg0)) (m ((c : Thread nD τ).loc main_arg1)))
    (fun t _ => flushed_eq m c t) cover

/-- The line after the region slices the vocabulary's 50257 columns out of the padded output. -/
theorem tail_eq (c : Dev nD) :
    Pipeline.afterTail₀ cfgs (dats m) 0 (V0 m) [hostOps1] c main_v3
      = extractStridedSlice S512x50257 ![0, 0] ((dats m 0 c).arrAt 3 cfg0.N) slices_S512x50304_S512x50257_0_0 := by
  unfold Pipeline.afterTail₀
  show StableHlo.after hostOps1 _ (Proc.devRef .tc main_v3) = _
  after_results
  exact congrArg (fun x => extractStridedSlice S512x50257 ![0, 0] x slices_S512x50304_S512x50257_0_0)
    (Pipeline.withArrays_arr spec0 launch0.win.arr_inj c _ _ 3)

/-- The slice of the padded output is the frequency table. -/
theorem slice_KG (a : IVec Cert.Hist.SA 32) (w : Cert.Hist.SA.Idx → EReal) :
    extractStridedSlice S512x50257 ![0, 0] (KG a w) slices_S512x50304_S512x50257_0_0 = Cert.Hist.freq a w := by
  funext i
  have hi1 : (i 1).val < 50257 := (i 1).isLt
  refine (extractStridedSlice_apply ![0, 0] (KG a w) slices_S512x50304_S512x50257_0_0 i
    (ix2 (i 0) ⟨(i 1).val, by omega⟩) (fun d => ?_)).trans ?_
  · match d with
    | ⟨0, _⟩ => show (i 0).val = 0 + (i 0).val; omega
    | ⟨1, _⟩ => show (i 1).val = 0 + (i 1).val; omega
  · rfl

/-! ## The run, read -/

/-- Every run of the program ends with the result array at the frequency table of the two argument arrays, and the
    arguments unchanged. -/
theorem run : θ_run (Cert.KernelIdeal.defs (F := Ideal)) (onTc (τ := Cert.KernelIdeal.τ) (Cert.KernelIdeal.main (F := Ideal))) ⟨m, fun _ => 0, ρ⟩ (fun r => ∀ c : Dev Cert.KernelIdeal.nD,
      r.2.mem ((c.tc : Thread nD τ).loc main_v3) = Cert.Hist.freq (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c => ⟨
      ((h c).2 main_v3 (Pipeline.mem_restRefs_of main_v3 rfl (by decide))).trans
        ((tail_eq m c).trans ((congrArg (fun x => extractStridedSlice S512x50257 ![0, 0] x slices_S512x50304_S512x50257_0_0) (final m c)).trans
          (slice_KG _ _))),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c)))⟩)
    (run_main m ρ)

end Cert.KernelIdeal.HistValue
end
-- ==== Proof.lean ====
/-
  The row-normalised vocabulary histogram: kernel against reference, over the extended reals.

  Both programs take 512 rows of 2048 tokens `a` (32-bit words) with a weight `w` per token and return, for each row `b`
  and each of the 50257 words `v` of the vocabulary, the total weight of the row's tokens equal to `v` over the row's
  total weight. The kernel counts by comparison: a grid of 16 × 393 points, each writing a 32 × 128 block of a table
  padded to 50304 columns, whose cell is the sum over the row's positions of the equality mask times the weight, taken
  256 positions at a time, divided by the row total that the host computed before the call; the host then cuts the
  padding off. The reference scatters every token's weight onto the cell its (row, word) pair names, sums each row of
  the table it gets, and divides.

  The two agree when every token is a word of the vocabulary (`0 ≤ a < 50257`, the precondition's added conjunct):
  then the scatter drops nothing and wraps nothing, the cell it fills is the comparison's sum (both are the sum of
  the weights of the row's tokens equal to the word), and the table's row sum is the row's total weight, every token
  being counted once, at its own word. Only commutativity and associativity of the sum are used, so the weights'
  finiteness plays no part; the division is the same operation on the same two numbers on both sides.

  The three frames are the generated ones (the reference's is its generated run with the result dropped); the
  idealization rewrote nothing, so `preserves` is trivial; `algebraic` puts the kernel's run (Proof/KernelValue.lean
  over Proof/KernelBody.lean) beside the reference's generated run read back (Proof/RefValue.lean over
  Proof/ScatterRead.lean), both at the one function `Cert.Hist.freq` of Proof/HistSpec.lean, the token range
  decoded from the precondition in Proof/PreRead.lean.
-/
import proofs.«403574_j5471788335935_2_alg».proof.Defs
import proofs.«403574_j5471788335935_2_alg».proof.Proof.Gen.Kernel
import proofs.«403574_j5471788335935_2_alg».proof.Proof.Gen.Kernel.Frame
import proofs.«403574_j5471788335935_2_alg».proof.Proof.Gen.KernelIdeal
import proofs.«403574_j5471788335935_2_alg».proof.Proof.Gen.KernelIdeal.Frame
import proofs.«403574_j5471788335935_2_alg».proof.Proof.Gen.ReferenceIdeal
import proofs.«403574_j5471788335935_2_alg».proof.Proof.Gen.ReferenceIdeal.Run
import proofs.«403574_j5471788335935_2_alg».proof.Proof.Gen.ReferenceIdeal.Read
import proofs.«403574_j5471788335935_2_alg».proof.Proof.Gen.Pre_finite_inputs
import proofs.«403574_j5471788335935_2_alg».proof.Proof.HistSpec
import proofs.«403574_j5471788335935_2_alg».proof.Proof.PreRead
import proofs.«403574_j5471788335935_2_alg».proof.Proof.RefValue
import proofs.«403574_j5471788335935_2_alg».proof.Proof.KernelValue
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ
theorem frame_ki : Cert.frame_KernelIdeal := fun m ρ _ => Cert.KernelIdeal.Gen.frame m ρ
/-- The reference has no kernel: its frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- From arguments that agree, with every token in the vocabulary, both runs end at the frequency table of the
    arguments: the kernel's by its value, the reference's by its run's term read as that table. -/
theorem algebraic : Cert.algebraic_KernelIdeal_ReferenceIdeal := by
  intro m ρ m' ρ' hpre hagree
  refine ⟨_, Cert.KernelIdeal.HistValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v21_eq, (hagree c).1, (hagree c).2]
  exact Cert.ReferenceIdeal.RefValue.ref_eq _ _ (Cert.Hist.inRange_of_pre _ _ (hpre c))

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
